-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x4 : Shape := ⟨3, ![64, 8192, 4]⟩
abbrev S20 : Shape := ⟨1, ![20]⟩
abbrev S_ : Shape := ⟨0, ![]⟩

class Facts : Prop where
  bcast_S_S64x8192x4 : S_.BroadcastsInDim S64x8192x4 (![] : Fin 0 → Fin S64x8192x4.rank)
  reducesTo_S64x8192x4_S_d0_1_2 : S64x8192x4.ReducesTo [0, 1, 2] S_
  h_S_ : 0 < S_.numel
  bcast_S_S20 : S_.BroadcastsInDim S20 (![] : Fin 0 → Fin S20.rank)
  reducesTo_S20_S_d0 : S20.ReducesTo [0] S_

variable [Facts]

def fn {F : FTy → Type} [FloatOps F] (main_arg0 : FVec F S64x8192x4 .f32) (main_arg1 : FVec F S20 .f32) : IVec S_ 1 :=
  let main_v0 : FVec F S64x8192x4 .f32 := Host.absf main_arg0
  let main_cst : FVec F S_ .f32 := constant S_ .f32 0x7F800000#32
  let main_v1 : FVec F S64x8192x4 .f32 := broadcastInDim S64x8192x4 ![] bcast_S_S64x8192x4 main_cst
  let main_v2 : IVec S64x8192x4 1 := cmpf .olt main_v0 main_v1
  let main_c : IVec S_ 1 := constantI S_ 1 1#1
  let main_v3 : IVec S_ 1 := (fun x v => Host.reduce IntOp.andi x v reducesTo_S64x8192x4_S_d0_1_2 h_S_) main_v2 main_c
  let main_v4 : FVec F S20 .f32 := Host.absf main_arg1
  let main_cst_0 : FVec F S_ .f32 := constant S_ .f32 0x7F800000#32
  let main_v5 : FVec F S20 .f32 := broadcastInDim S20 ![] bcast_S_S20 main_cst_0
  let main_v6 : IVec S20 1 := cmpf .olt main_v4 main_v5
  let main_c_1 : IVec S_ 1 := constantI S_ 1 1#1
  let main_v7 : IVec S_ 1 := (fun x v => Host.reduce IntOp.andi x v reducesTo_S20_S_d0 h_S_) main_v6 main_c_1
  let main_v8 : IVec S_ 1 := andi main_v3 main_v7
  main_v8
-- ==== Kernel.lean ====
abbrev S64x8192x4 : Shape := ⟨3, ![64, 8192, 4]⟩
abbrev S20 : Shape := ⟨1, ![20]⟩
abbrev S64x8192x120 : Shape := ⟨3, ![64, 8192, 120]⟩
abbrev S8x1024x4 : Shape := ⟨3, ![8, 1024, 4]⟩
abbrev S8x1024x120 : Shape := ⟨3, ![8, 1024, 120]⟩
abbrev S8x1024x3 : Shape := ⟨3, ![8, 1024, 3]⟩
abbrev S8x1024x3x1 : Shape := ⟨4, ![8, 1024, 3, 1]⟩
abbrev S1x1x1x20 : Shape := ⟨4, ![1, 1, 1, 20]⟩
abbrev S8x1024x3x20 : Shape := ⟨4, ![8, 1024, 3, 20]⟩
abbrev S8x1024x3x20x1 : Shape := ⟨5, ![8, 1024, 3, 20, 1]⟩
abbrev S8x1024x3x20x2 : Shape := ⟨5, ![8, 1024, 3, 20, 2]⟩

abbrev nBuf : Space → Nat
  | .hbm => 3
  | .vmem => 5
  | .smem => 0
  | _ => 0

abbrev bufTy : (tb : Table) → Fin (tcTables nBuf tb) → BufTy
  | .hbm, ⟨0, _⟩ => ⟨S64x8192x4, .f32⟩
  | .hbm, ⟨1, _⟩ => ⟨S20, .f32⟩
  | .hbm, ⟨2, _⟩ => ⟨S64x8192x120, .f32⟩
  | .local _ .vmem, ⟨0, _⟩ => ⟨S8x1024x4, .f32⟩
  | .local _ .vmem, ⟨1, _⟩ => ⟨S8x1024x4, .f32⟩
  | .local _ .vmem, ⟨2, _⟩ => ⟨S20, .f32⟩
  | .local _ .vmem, ⟨3, _⟩ => ⟨S8x1024x120, .f32⟩
  | .local _ .vmem, ⟨4, _⟩ => ⟨S8x1024x120, .f32⟩
  | _, _ => ⟨S64x8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x1024x120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x1024x4_S8x1024x4_0_0_0 : ∀ a, (![0, 0, 0] : Fin 3 → Nat) a + S8x1024x4.size a ≤ S8x1024x4.size a
  h_S8x1024x4 : 0 < S8x1024x4.numel
  slices_S8x1024x4_o0_0_1_S8x1024x3 : S8x1024x4.Slices ![0, 0, 1] S8x1024x3
  inb_S20_S20_0 : ∀ a, (![0] : Fin 1 → Nat) a + S20.size a ≤ S20.size a
  h_S20 : 0 < S20.numel
  shapeCasts_S8x1024x3_S8x1024x3x1 : S8x1024x3.ShapeCasts S8x1024x3x1
  shapeCasts_S20_S1x1x1x20 : S20.ShapeCasts S1x1x1x20
  broadcasts_S8x1024x3x1_S8x1024x3x20 : S8x1024x3x1.Broadcasts S8x1024x3x20
  broadcasts_S1x1x1x20_S8x1024x3x20 : S1x1x1x20.Broadcasts S8x1024x3x20
  shapeCasts_S8x1024x3x20_S8x1024x3x20x1 : S8x1024x3x20.ShapeCasts S8x1024x3x20x1
  concatenates_S8x1024x3x20x1_S8x1024x3x20x1_S8x1024x3x20x2_d4 : Shape.Concatenates [S8x1024x3x20x1, S8x1024x3x20x1] S8x1024x3x20x2 4
  shapeCasts_S8x1024x3x20x2_S8x1024x120 : S8x1024x3x20x2.ShapeCasts S8x1024x120
  inb_S8x1024x120_S8x1024x120_0_0_0 : ∀ a, (![0, 0, 0] : Fin 3 → Nat) a + S8x1024x120.size a ≤ S8x1024x120.size a
  h_S8x1024x120 : 0 < S8x1024x120.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x4.size a ≤ S64x8192x4.size a
  hwx0_0 : ∀ i : grid0.Coords, EltTy.bits .f32 = 32 ∨ (Rect.block (s := S64x8192x4) S8x1024x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20.size a ≤ S20.size a
  hwx0_1 : ∀ i : grid0.Coords, EltTy.bits .f32 = 32 ∨ (Rect.block (s := S20) S20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024x120.size a ≤ S64x8192x120.size a
  hwx0_2 : ∀ i : grid0.Coords, EltTy.bits .f32 = 32 ∨ (Rect.block (s := S64x8192x120) S8x1024x120.size (cc0_transform_2 i) (hinb0_2 i)).WholeWords (EltTy.packing .f32)

variable [Facts₀]

abbrev win0_0 : Pipeline.Window sig grid0 :=
  Pipeline.Window.ofSpec (Memref.whole main_arg0) S8x1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1024x120.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192x4 : Shape := ⟨3, ![64, 8192, 4]⟩
abbrev S20 : Shape := ⟨1, ![20]⟩
abbrev S64x8192x3 : Shape := ⟨3, ![64, 8192, 3]⟩
abbrev S64x8192x3x1 : Shape := ⟨4, ![64, 8192, 3, 1]⟩
abbrev S1x1x1x20 : Shape := ⟨4, ![1, 1, 1, 20]⟩
abbrev S64x8192x3x20 : Shape := ⟨4, ![64, 8192, 3, 20]⟩
abbrev S64x8192x3x20x1 : Shape := ⟨5, ![64, 8192, 3, 20, 1]⟩
abbrev S64x8192x3x20x2 : Shape := ⟨5, ![64, 8192, 3, 20, 2]⟩
abbrev S64x8192x120 : Shape := ⟨3, ![64, 8192, 120]⟩

abbrev nBuf : Space → Nat
  | .hbm => 14
  | .vmem => 0
  | .smem => 0
  | _ => 0

abbrev bufTy : (tb : Table) → Fin (tcTables nBuf tb) → BufTy
  | .hbm, ⟨0, _⟩ => ⟨S64x8192x4, .f32⟩
  | .hbm, ⟨1, _⟩ => ⟨S20, .f32⟩
  | .hbm, ⟨2, _⟩ => ⟨S64x8192x3, .f32⟩
  | .hbm, ⟨3, _⟩ => ⟨S64x8192x3x1, .f32⟩
  | .hbm, ⟨4, _⟩ => ⟨S1x1x1x20, .f32⟩
  | .hbm, ⟨5, _⟩ => ⟨S64x8192x3x20, .f32⟩
  | .hbm, ⟨6, _⟩ => ⟨S64x8192x3x20, .f32⟩
  | .hbm, ⟨7, _⟩ => ⟨S64x8192x3x20, .f32⟩
  | .hbm, ⟨8, _⟩ => ⟨S64x8192x3x20, .f32⟩
  | .hbm, ⟨9, _⟩ => ⟨S64x8192x3x20, .f32⟩
  | .hbm, ⟨10, _⟩ => ⟨S64x8192x3x20x1, .f32⟩
  | .hbm, ⟨11, _⟩ => ⟨S64x8192x3x20x1, .f32⟩
  | .hbm, ⟨12, _⟩ => ⟨S64x8192x3x20x2, .f32⟩
  | .hbm, ⟨13, _⟩ => ⟨S64x8192x120, .f32⟩
  | _, _ => ⟨S64x8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]

class Facts₀ : Prop where
  slices_S64x8192x4_S64x8192x3_0_0_1 : S64x8192x4.Slices ![0, 0, 1] S64x8192x3
  bcast_S64x8192x3_S64x8192x3x1_0_1_2 : S64x8192x3.BroadcastsInDim S64x8192x3x1 (![0, 1, 2] : Fin 3 → Fin S64x8192x3x1.rank)
  bcast_S20_S1x1x1x20_3 : S20.BroadcastsInDim S1x1x1x20 (![3] : Fin 1 → Fin S1x1x1x20.rank)
  bcast_S64x8192x3x1_S64x8192x3x20_0_1_2_3 : S64x8192x3x1.BroadcastsInDim S64x8192x3x20 (![0, 1, 2, 3] : Fin 4 → Fin S64x8192x3x20.rank)
  bcast_S1x1x1x20_S64x8192x3x20_0_1_2_3 : S1x1x1x20.BroadcastsInDim S64x8192x3x20 (![0, 1, 2, 3] : Fin 4 → Fin S64x8192x3x20.rank)
  bcast_S64x8192x3x20_S64x8192x3x20x1_0_1_2_3 : S64x8192x3x20.BroadcastsInDim S64x8192x3x20x1 (![0, 1, 2, 3] : Fin 4 → Fin S64x8192x3x20x1.rank)
  concatenates_S64x8192x3x20x1_S64x8192x3x20x1_S64x8192x3x20x2_d4 : Shape.Concatenates [S64x8192x3x20x1, S64x8192x3x20x1] S64x8192x3x20x2 4
  shapeCasts_S64x8192x3x20x2_S64x8192x120 : S64x8192x3x20x2.ShapeCasts S64x8192x120

variable [Facts₀]

class Facts : Prop extends Facts₀ where

variable [Facts]
-- ==== Proof.Encoding.lean ====
/-
  The positional encoding as ONE function of its two argument arrays.

  A row (n, l) of the position array holds four numbers, of which the last three are the x / y / z positions. Its
  120 features are laid out axis-major: feature `r` belongs to position axis `r / 40`, to frequency `(r / 2) % 20`, and is
  the SINE of (position on that axis) · (that frequency's divisor) for even `r`, the COSINE of the same angle for odd `r`.
  That is what "stack sine and cosine on a new last axis, then flatten [3, 20, 2] to 120" means index by index: the row-major
  position of (axis, frequency, phase) in [3, 20, 2] is 40·axis + 2·frequency + phase.

  Nothing here mentions a program. The product is the extended reals' and sine and cosine are the ideal ones, so the
  function is defined on every extended-real input and no finiteness is used anywhere.
-/
import Idealize.ShloMosaic.Lib.ValueIdx
import Idealize.ShloMosaic.Lib.Pipeline.Value

noncomputable section

namespace Cert.Encoding

open Idealize.ShloMosaic Idealize.ShloMosaic.ValueIdx

/-- Feature `r` of one row, from the row's three positions and the twenty divisors: axis `r / 40`, frequency
    `(r / 2) % 20`, sine at even `r` and cosine at odd `r` of position · divisor. -/
def feature (pos : Fin 3 → EReal) (div : Fin 20 → EReal) (r : Fin 120) : EReal :=
  if r.val % 2 = 0 then Ideal.sin (pos ⟨r.val / 40, by have := r.isLt; omega⟩ * div ⟨r.val / 2 % 20, by omega⟩)
  else Ideal.cos (pos ⟨r.val / 40, by have := r.isLt; omega⟩ * div ⟨r.val / 2 % 20, by omega⟩)

/-- Entry (n, l, r) of the encoding of the position array `x` with divisors `d`: feature `r` of row (n, l), whose
    positions are columns 1, 2, 3 of the row (column 0 is not read). -/
def entry (x : (⟨3, ![64, 8192, 4]⟩ : Shape).Idx → EReal) (d : (⟨1, ![20]⟩ : Shape).Idx → EReal)
    (n : Fin 64) (l : Fin 8192) (r : Fin 120) : EReal :=
  feature (fun a => x (ix3 n l ⟨1 + a.val, by have := a.isLt; omega⟩)) (fun k => d (ix1 k)) r

/-- The encoding: the [64, 8192, 120] array of all entries. -/
def encoding (x : (⟨3, ![64, 8192, 4]⟩ : Shape).Idx → EReal) (d : (⟨1, ![20]⟩ : Shape).Idx → EReal) :
    (⟨3, ![64, 8192, 120]⟩ : Shape).Idx → EReal :=
  fun j => entry x d (j 0) (j 1) (j 2)

theorem encoding_apply (x : (⟨3, ![64, 8192, 4]⟩ : Shape).Idx → EReal) (d : (⟨1, ![20]⟩ : Shape).Idx → EReal)
    (n : Fin 64) (l : Fin 8192) (r : Fin 120) : encoding x d (ix3 n l r) = entry x d n l r := rfl

/-! ## Sine and cosine interleaved on a new last axis -/

/-- Two arrays with a trailing unit axis joined along that axis, read at phase `s` of the joined axis: the first
    array at phase 0, the second at phase 1 — each at the same leading coordinates. The two leading extents are
    arbitrary: the same statement serves one block of rows and the whole array. -/
theorem joined_apply {α : Type} {A B : ℕ} (u v : (⟨5, ![A, B, 3, 20, 1]⟩ : Shape).Idx → α)
    (h : Shape.Concatenates [(⟨5, ![A, B, 3, 20, 1]⟩ : Shape), ⟨5, ![A, B, 3, 20, 1]⟩] ⟨5, ![A, B, 3, 20, 2]⟩ (4 : Fin 5))
    (p : Fin A) (q : Fin B) (c : Fin 3) (k : Fin 20) (s : Fin 2) :
    concatenate ⟨5, ![A, B, 3, 20, 2]⟩ (4 : Fin 5) [⟨⟨5, ![A, B, 3, 20, 1]⟩, u⟩, ⟨⟨5, ![A, B, 3, 20, 1]⟩, v⟩] h (ix5 p q c k s)
      = if s.val = 0 then u (ix5 p q c k ⟨0, Nat.one_pos⟩) else v (ix5 p q c k ⟨0, Nat.one_pos⟩) := by
  have hs := s.isLt
  by_cases h0 : s.val = 0
  · rw [if_pos h0]
    refine concatenate_pair_apply_left (t := ⟨5, ![A, B, 3, 20, 2]⟩) (s₁ := ⟨5, ![A, B, 3, 20, 1]⟩) (s₂ := ⟨5, ![A, B, 3, 20, 1]⟩)
      (4 : Fin 5) u v h _ rfl _ (fun b => ?_)
    match b with
    | ⟨0, _⟩ => rfl
    | ⟨1, _⟩ => rfl
    | ⟨2, _⟩ => rfl
    | ⟨3, _⟩ => rfl
    | ⟨4, _⟩ => exact h0.symm
  · rw [if_neg h0]
    refine concatenate_pair_apply_right (t := ⟨5, ![A, B, 3, 20, 2]⟩) (s₁ := ⟨5, ![A, B, 3, 20, 1]⟩) (s₂ := ⟨5, ![A, B, 3, 20, 1]⟩)
      (4 : Fin 5) u v h _ rfl rfl _ (fun b hb => ?_) ?_
    · match b with
      | ⟨0, _⟩ => rfl
      | ⟨1, _⟩ => rfl
      | ⟨2, _⟩ => rfl
      | ⟨3, _⟩ => rfl
      | ⟨4, _⟩ => exact absurd rfl hb
    · show 0 + 1 = s.val
      omega

end Cert.Encoding

end
-- ==== Proof.BlockValue.lean ====
/-
  One block of the kernel's output, entry by entry.

  The body's stored value is a chain of layout operations around two pointwise ones. Read at entry (p, q, r) of the
  [8, 1024, 120] block, from the outside in: the flattening [8, 1024, 3, 20, 2] → [8, 1024, 120] sends r to
  (axis, frequency, phase) = (r / 40, (r / 2) % 20, r % 2), since 120·row + r = 2·(20·(3·row + axis) + frequency) + phase;
  the join along the phase axis picks the sine array at phase 0 and the cosine array at phase 1; both are taken of the
  ANGLE array, whose entry (p, q, axis, frequency) is column 1 + axis of row (p, q) of the position block times divisor
  `frequency` — the slice drops column 0, the two broadcasts repeat the positions over the frequencies and the divisors over
  the rows and axes. So entry (p, q, r) of the block is feature `r` of row (p, q).
-/
import proofs.«112678_j20280835572091_1_alg».proof.Proof.Gen.KernelIdeal.Skeleton
import proofs.«112678_j20280835572091_1_alg».proof.Proof.Encoding
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.Encoding

/-- The block's angles: every position of every row times every divisor. -/
def angles (x0 : Vec Ideal S8x1024x4 .f32) (x1 : Vec Ideal S20 .f32) : FVec Ideal S8x1024x3x20 .f32 :=
  mulf
    (broadcastTo S8x1024x3x20
      (shapeCast S8x1024x3x1 (extractStridedSlice S8x1024x3 ![0, 0, 1] x0 slices_S8x1024x4_o0_0_1_S8x1024x3) shapeCasts_S8x1024x3_S8x1024x3x1)
      broadcasts_S8x1024x3x1_S8x1024x3x20)
    (broadcastTo S8x1024x3x20 (shapeCast S1x1x1x20 x1 shapeCasts_S20_S1x1x1x20) broadcasts_S1x1x1x20_S8x1024x3x20)

/-- The repeated positions: entry (p, q, c, k) is column 1 + c of row (p, q). -/
theorem positions_apply (x0 : Vec Ideal S8x1024x4 .f32) (p : Fin 8) (q : Fin 1024) (c : Fin 3) (k : Fin 20) :
    broadcastTo S8x1024x3x20
      (shapeCast S8x1024x3x1 (extractStridedSlice S8x1024x3 ![0, 0, 1] x0 slices_S8x1024x4_o0_0_1_S8x1024x3) shapeCasts_S8x1024x3_S8x1024x3x1)
      broadcasts_S8x1024x3x1_S8x1024x3x20 (ix4 p q c k)
      = x0 (ix3 p q ⟨1 + c.val, by have := c.isLt; omega⟩) := by
  refine (broadcastTo_apply _ broadcasts_S8x1024x3x1_S8x1024x3x20 (ix4 p q c k) (ix4 p q c ⟨0, Nat.one_pos⟩) (fun a => ?_)).trans ?_
  · match a with
    | ⟨0, _⟩ => show p.val = if (8 : Nat) = 1 then 0 else p.val; rw [if_neg (by decide)]
    | ⟨1, _⟩ => show q.val = if (1024 : Nat) = 1 then 0 else q.val; rw [if_neg (by decide)]
    | ⟨2, _⟩ => show c.val = if (3 : Nat) = 1 then 0 else c.val; rw [if_neg (by decide)]
    | ⟨3, _⟩ => show 0 = if (1 : Nat) = 1 then 0 else k.val; rw [if_pos rfl]
  refine (shapeCast_apply _ shapeCasts_S8x1024x3_S8x1024x3x1 (ix4 p q c ⟨0, Nat.one_pos⟩) (ix3 p q c) ?_).trans ?_
  · rw [Shape.rowMajor_val_three, Shape.rowMajor_val_four]
    show (p.val * 1024 + q.val) * 3 + c.val = ((p.val * 1024 + q.val) * 3 + c.val) * 1 + 0
    omega
  refine extractStridedSlice_apply ![0, 0, 1] x0 slices_S8x1024x4_o0_0_1_S8x1024x3 (ix3 p q c) _ (fun a => ?_)
  match a with
  | ⟨0, _⟩ => show p.val = 0 + p.val; omega
  | ⟨1, _⟩ => show q.val = 0 + q.val; omega
  | ⟨2, _⟩ => show 1 + c.val = 1 + c.val; rfl

/-- The repeated divisors: entry (p, q, c, k) is divisor k. -/
theorem divisors_apply (x1 : Vec Ideal S20 .f32) (p : Fin 8) (q : Fin 1024) (c : Fin 3) (k : Fin 20) :
    broadcastTo S8x1024x3x20 (shapeCast S1x1x1x20 x1 shapeCasts_S20_S1x1x1x20) broadcasts_S1x1x1x20_S8x1024x3x20 (ix4 p q c k)
      = x1 (ix1 k) := by
  refine (broadcastTo_apply _ broadcasts_S1x1x1x20_S8x1024x3x20 (ix4 p q c k)
    (ix4 ⟨0, Nat.one_pos⟩ ⟨0, Nat.one_pos⟩ ⟨0, Nat.one_pos⟩ k) (fun a => ?_)).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show 0 = if (1 : Nat) = 1 then 0 else c.val; rw [if_pos rfl]
    | ⟨3, _⟩ => show k.val = if (20 : Nat) = 1 then 0 else k.val; rw [if_neg (by decide)]
  refine shapeCast_apply _ shapeCasts_S20_S1x1x1x20 _ (ix1 k) ?_
  rw [Shape.rowMajor_val_one, Shape.rowMajor_val_four]
  show k.val = ((0 * 1 + 0) * 1 + 0) * 20 + k.val
  omega

/-- An angle: position · divisor. -/
theorem angles_apply (x0 : Vec Ideal S8x1024x4 .f32) (x1 : Vec Ideal S20 .f32) (p : Fin 8) (q : Fin 1024) (c : Fin 3) (k : Fin 20) :
    angles x0 x1 (ix4 p q c k) = x0 (ix3 p q ⟨1 + c.val, by have := c.isLt; omega⟩) * x1 (ix1 k) := by
  unfold angles
  rw [mulf_apply, positions_apply, divisors_apply]

/-- A function of the angles with a unit phase axis appended, read at phase 0. -/
theorem phase_apply (w : FVec Ideal S8x1024x3x20 .f32) (p : Fin 8) (q : Fin 1024) (c : Fin 3) (k : Fin 20) :
    shapeCast S8x1024x3x20x1 w shapeCasts_S8x1024x3x20_S8x1024x3x20x1 (ix5 p q c k ⟨0, Nat.one_pos⟩) = w (ix4 p q c k) := by
  refine shapeCast_apply _ shapeCasts_S8x1024x3x20_S8x1024x3x20x1 _ (ix4 p q c k) ?_
  rw [Shape.rowMajor_val_four, Shape.rowMajor_val_five]
  show ((p.val * 1024 + q.val) * 3 + c.val) * 20 + k.val = (((p.val * 1024 + q.val) * 3 + c.val) * 20 + k.val) * 1 + 0
  omega

/-- The stored value is the flattened join of the sines and the cosines of the angles. -/
theorem payload_eq (x0 : Vec Ideal S8x1024x4 .f32) (x1 : Vec Ideal S20 .f32) :
    k0_pay1 (F := Ideal) x0 x1
      = shapeCast S8x1024x120
          (concatenate S8x1024x3x20x2 4
            [⟨S8x1024x3x20x1, shapeCast S8x1024x3x20x1 (sin (angles x0 x1)) shapeCasts_S8x1024x3x20_S8x1024x3x20x1⟩,
             ⟨S8x1024x3x20x1, shapeCast S8x1024x3x20x1 (cos (angles x0 x1)) shapeCasts_S8x1024x3x20_S8x1024x3x20x1⟩]
            concatenates_S8x1024x3x20x1_S8x1024x3x20x1_S8x1024x3x20x2_d4)
          shapeCasts_S8x1024x3x20x2_S8x1024x120 := rfl

/-- ENTRY (p, q, r) OF THE BLOCK is feature `r` of row (p, q) of the position block. -/
theorem payload_apply (x0 : Vec Ideal S8x1024x4 .f32) (x1 : Vec Ideal S20 .f32) (p : Fin 8) (q : Fin 1024) (r : Fin 120) :
    k0_pay1 (F := Ideal) x0 x1 (ix3 p q r)
      = feature (fun a => x0 (ix3 p q ⟨1 + a.val, by have := a.isLt; omega⟩)) (fun k => x1 (ix1 k)) r := by
  have hr := r.isLt
  rw [payload_eq]
  refine (shapeCast_apply _ shapeCasts_S8x1024x3x20x2_S8x1024x120 (ix3 p q r)
    (ix5 p q ⟨r.val / 40, by omega⟩ ⟨r.val / 2 % 20, by omega⟩ ⟨r.val % 2, by omega⟩) ?_).trans ?_
  · rw [Shape.rowMajor_val_five, Shape.rowMajor_val_three]
    show (((p.val * 1024 + q.val) * 3 + r.val / 40) * 20 + r.val / 2 % 20) * 2 + r.val % 2 = (p.val * 1024 + q.val) * 120 + r.val
    omega
  refine (joined_apply _ _ concatenates_S8x1024x3x20x1_S8x1024x3x20x1_S8x1024x3x20x2_d4 p q _ _ _).trans ?_
  refine if_congr Iff.rfl ?_ ?_
  · rw [phase_apply]
    show Ideal.sin (angles x0 x1 (ix4 p q _ _)) = _
    rw [angles_apply]
  · rw [phase_apply]
    show Ideal.cos (angles x0 x1 (ix4 p q _ _)) = _
    rw [angles_apply]

end Cert.KernelIdeal.BlockValue

end
-- ==== Proof.ArrayValue.lean ====
/-
  The kernel's result array is the encoding.

  The grid is 8 × 8: point t = 8·i + j handles rows n ∈ [8i, 8i + 8) of the first axis and l ∈ [1024j, 1024j + 1024) of the
  second, all four columns of the position array and all 120 features of the result; the divisor array is one block, the same at
  every point. So entry (p, q, a) of the position block at t is entry (8i + p, 1024j + q, a) of the position array, and entry
  (p, q, r) of the result block — feature r of row (p, q) of the position block — is feature r of row (8i + p, 1024j + q) of
  the array: the block is the encoding read through the block's rectangle. Every row (n, l) lies in the block of point
  8·(n / 8) + l / 1024, so the 64 blocks cover the result array, which therefore ends holding the encoding everywhere.
-/
import proofs.«112678_j20280835572091_1_alg».proof.Proof.Gen.KernelIdeal.Value
import proofs.«112678_j20280835572091_1_alg».proof.Proof.BlockValue
import proofs.«112678_j20280835572091_1_alg».proof.Proof.Encoding
import Idealize.ShloMosaic.Lib.Pipeline.Value
import Idealize.ShloMosaic.Lib.ValueIdx

noncomputable section

namespace Cert.KernelIdeal.ArrayValue

open Cert.KernelIdeal Cert.KernelIdeal.Gen Cert.KernelIdeal.Value Cert.KernelIdeal.BlockValue Cert.Encoding
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros1 : (![0] : Fin 1 → Nat) = fun _ => 0 := funext fun a => by fin_cases a <;> rfl

/-- Which block each window is on at point t: the position and result windows on block (t / 8, t % 8, 0), the divisor
    window on its one block. Decided over the 64 points. -/
theorem tile_facts : ∀ t : Fin cfg0.N,
    win0_0.index t (0 : Fin 3) = t.val / 8 ∧ win0_0.index t (1 : Fin 3) = t.val % 8 ∧ win0_0.index t (2 : Fin 3) = 0
    ∧ win0_1.index t (0 : Fin 1) = 0
    ∧ win0_2.index t (0 : Fin 3) = t.val / 8 ∧ win0_2.index t (1 : Fin 3) = t.val % 8 ∧ win0_2.index t (2 : Fin 3) = 0 :=
  (by decide +kernel : ∀ t : Fin grid0.N, _)

theorem point_lt (t : Fin cfg0.N) : t.val < 64 := lt_of_lt_of_eq t.isLt N_0

/-- The position block at point t is rows 8·(t / 8) …, 1024·(t % 8) … of the position array. -/
theorem positions_block (c : Dev nD) (t : Fin cfg0.N) (p : Fin 8) (q : Fin 1024) (a : Fin 4) :
    (iblk m c 0 t : Vec Ideal S8x1024x4 .f32) (ix3 p q a)
      = (V m c main_arg0 : Vec Ideal S64x8192x4 .f32)
          (ix3 ⟨8 * (t.val / 8) + p.val, by have := point_lt t; have := p.isLt; omega⟩
            ⟨1024 * (t.val % 8) + q.val, by have := q.isLt; omega⟩ a) := by
  obtain ⟨e00, e01, e02, -, -, -, -⟩ := tile_facts t
  unfold iblk
  rw [View.read_apply]
  show V m c main_arg0 _ = V m c main_arg0 _
  refine congrArg (V m c main_arg0) (funext fun b => Fin.ext ?_)
  match b with
  | ⟨0, _⟩ => show win0_0.index t (0 : Fin 3) * 8 + 1 * p.val = 8 * (t.val / 8) + p.val; rw [e00]; omega
  | ⟨1, _⟩ => show win0_0.index t (1 : Fin 3) * 1024 + 1 * q.val = 1024 * (t.val % 8) + q.val; rw [e01]; omega
  | ⟨2, _⟩ => show win0_0.index t (2 : Fin 3) * 4 + 1 * a.val = a.val; rw [e02]; omega

/-- The divisor block at every point is the divisor array. -/
theorem divisors_block (c : Dev nD) (t : Fin cfg0.N) (k : Fin 20) :
    (iblk m c 1 t : Vec Ideal S20 .f32) (ix1 k) = (V m c main_arg1 : Vec Ideal S20 .f32) (ix1 k) := by
  obtain ⟨-, -, -, e10, -, -, -⟩ := tile_facts t
  unfold iblk
  rw [View.read_apply]
  show V m c main_arg1 _ = V m c main_arg1 _
  refine congrArg (V m c main_arg1) (funext fun b => Fin.ext ?_)
  match b with
  | ⟨0, _⟩ => show win0_1.index t (0 : Fin 1) * 20 + 1 * k.val = k.val; rw [e10]; omega

/-- A block of features computed from a block of rows of the position array is that block of the encoding. -/
theorem block_entry (x0 : Vec Ideal S8x1024x4 .f32) (x1 : Vec Ideal S20 .f32) (X : Vec Ideal S64x8192x4 .f32) (D : Vec Ideal S20 .f32)
    (n0 l0 : ℕ) (hn : n0 + 8 ≤ 64) (hl : l0 + 1024 ≤ 8192)
    (h0 : ∀ (p : Fin 8) (q : Fin 1024) (a : Fin 4),
      x0 (ix3 p q a) = X (ix3 ⟨n0 + p.val, by have := p.isLt; omega⟩ ⟨l0 + q.val, by have := q.isLt; omega⟩ a))
    (h1 : ∀ k : Fin 20, x1 (ix1 k) = D (ix1 k)) (p : Fin 8) (q : Fin 1024) (r : Fin 120) :
    k0_pay1 (F := Ideal) x0 x1 (ix3 p q r)
      = encoding X D (ix3 ⟨n0 + p.val, by have := p.isLt; omega⟩ ⟨l0 + q.val, by have := q.isLt; omega⟩ r) := by
  rw [payload_apply, encoding_apply]
  unfold entry
  rw [show (fun a : Fin 3 => x0 (ix3 p q ⟨1 + a.val, by have := a.isLt; omega⟩))
        = fun a : Fin 3 => X (ix3 ⟨n0 + p.val, by have := p.isLt; omega⟩ ⟨l0 + q.val, by have := q.isLt; omega⟩ ⟨1 + a.val, by have := a.isLt; omega⟩)
      from funext fun a => h0 p q _,
    show (fun k : Fin 20 => x1 (ix1 k)) = fun k : Fin 20 => D (ix1 k) from funext h1]

/-- The encoding of core c's argument arrays, as contents of the result array. -/
abbrev result (c : Dev nD) : Buf (Elt Ideal) ((c : Thread nD τ).loc main_v0) :=
  encoding (m ((c : Thread nD τ).loc main_arg0)) (m ((c : Thread nD τ).loc main_arg1))

/-- WHAT POINT t WRITES BACK is block t of the encoding. -/
theorem flushed_eq (c : Dev nD) (t : Fin cfg0.N) :
    (dats m 0 c).flushed 2 t = ((cfg0.win 2).blk t).view.read (Elt Ideal) (result m c) := by
  obtain ⟨-, -, -, -, e20, e21, e22⟩ := tile_facts t
  have ht := point_lt t
  rw [flushed2]
  unfold out0_2
  rw [View.canon_unit_zero zeros3]
  simp only [View.ld_unit_zero (S := S8x1024x4) zeros3, View.ld_unit_zero (S := S20) zeros1]
  funext y
  show k0_pay1 (F := Ideal) (iblk m c 0 t) (iblk m c 1 t) y
      = encoding (V m c main_arg0) (V m c main_arg1) (((cfg0.win 2).blk t).view.emb y)
  refine ((congrArg (k0_pay1 (F := Ideal) (iblk m c 0 t) (iblk m c 1 t)) (eq_ix3 y)).trans
    (block_entry (iblk m c 0 t) (iblk m c 1 t) (V m c main_arg0) (V m c main_arg1) (8 * (t.val / 8)) (1024 * (t.val % 8))
      (by omega) (by omega) (positions_block m c t) (divisors_block m c t) (y 0) (y 1) (y 2))).trans
    (congrArg (encoding (V m c main_arg0) (V m c main_arg1)) (funext fun b => Fin.ext ?_))
  match b with
  | ⟨0, _⟩ => show 8 * (t.val / 8) + (y 0).val = win0_2.index t (0 : Fin 3) * 8 + 1 * (y 0).val; rw [e20]; omega
  | ⟨1, _⟩ => show 1024 * (t.val % 8) + (y 1).val = win0_2.index t (1 : Fin 3) * 1024 + 1 * (y 1).val; rw [e21]; omega
  | ⟨2, _⟩ => show (y 2).val = win0_2.index t (2 : Fin 3) * 120 + 1 * (y 2).val; rw [e22]; omega

/-- An index of the result array is in point t's block iff each coordinate is in the block's range on its axis. -/
theorem mem_blk (t : Fin cfg0.N) (i : S64x8192x120.Idx) :
    i ∈ ((cfg0.win 2).blk t).view.set ↔ ∀ a : Fin 3, win0_2.index t a * S8x1024x120.size a ≤ (i a).val
      ∧ (i a).val < win0_2.index t a * S8x1024x120.size a + S8x1024x120.size a := by
  show i ∈ ((View.whole main_v0).slice (win0_2.rect t)).set ↔ _
  rw [View.set_slice_whole, Rect.mem_set_unit]
  exact Iff.rfl

/-- Every index of the result array is in the block of the point that handles its row. -/
theorem covered (i : S64x8192x120.Idx) :
    ∃ t : Fin cfg0.N, (cfg0.win 2).flush t = true ∧ i ∈ ((cfg0.win 2).blk t).view.set := by
  have h0 : (i 0).val < 64 := (i 0).isLt
  have h1 : (i 1).val < 8192 := (i 1).isLt
  have h2 : (i 2).val < 120 := (i 2).isLt
  obtain ⟨t, ht⟩ : ∃ t : Fin cfg0.N, t.val = 8 * ((i 0).val / 8) + (i 1).val / 1024 :=
    ⟨⟨8 * ((i 0).val / 8) + (i 1).val / 1024, by rw [show cfg0.N = 64 from N_0]; omega⟩, rfl⟩
  obtain ⟨-, -, -, -, e20, e21, e22⟩ := tile_facts t
  refine ⟨t, flush0_2 t, ?_⟩
  rw [mem_blk]
  intro a
  match a with
  | ⟨0, _⟩ =>
    show win0_2.index t (0 : Fin 3) * 8 ≤ (i 0).val ∧ (i 0).val < win0_2.index t (0 : Fin 3) * 8 + 8
    rw [e20, ht]; omega
  | ⟨1, _⟩ =>
    show win0_2.index t (1 : Fin 3) * 1024 ≤ (i 1).val ∧ (i 1).val < win0_2.index t (1 : Fin 3) * 1024 + 1024
    rw [e21, ht]; omega
  | ⟨2, _⟩ =>
    show win0_2.index t (2 : Fin 3) * 120 ≤ (i 2).val ∧ (i 2).val < win0_2.index t (2 : Fin 3) * 120 + 120
    rw [e22]; omega

/-- THE RESULT ARRAY after the run is the encoding of the argument arrays. -/
theorem final (c : Dev nD) : (dats m 0 c).arrAt 2 cfg0.N = result m c :=
  (dats m 0 c).arrAt_eq_of_cover 2 (result m c) (fun t _ => flushed_eq m c t) covered

/-- The run, read: the result array at the encoding, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.ArrayValue

end
-- ==== Proof.RefValue.lean ====
/-
  The reference's result is the encoding.

  The reference computes on whole arrays what the kernel computes block by block: slice off column 0, repeat the positions
  over the frequencies and the divisors over rows and axes, multiply, take sine and cosine, join them on a new last axis and
  flatten [64, 8192, 3, 20, 2] to [64, 8192, 120]. Each stage but the join is read at an index by the generated stage lemmas;
  the join is read by phase. Entry (n, l, r) lands at (axis, frequency, phase) = (r / 40, (r / 2) % 20, r % 2) of the joined
  array, because 120·(8192·n + l) + r = 2·(20·(3·(8192·n + l) + axis) + frequency) + phase, so it is the sine (phase 0) or the
  cosine (phase 1) of position (1 + axis) of row (n, l) times divisor `frequency`: feature `r` of the row.
  The host's sine and cosine are the ideal ones, the same functions the kernel's are read as.
-/
import proofs.«112678_j20280835572091_1_alg».proof.Proof.Gen.ReferenceIdeal.Read
import proofs.«112678_j20280835572091_1_alg».proof.Proof.Encoding
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Encoding

/-- The reference's angle array at (n, l, c, k): position 1 + c of row (n, l) times divisor k. -/
theorem angle_apply (x : Vec Ideal S64x8192x4 .f32) (d : Vec Ideal S20 .f32) (n : Fin 64) (l : Fin 8192) (c : Fin 3) (k : Fin 20) :
    val_main_v5 (F := Ideal) x d (ix4 n l c k) = x (ix3 n l ⟨1 + c.val, by have := c.isLt; omega⟩) * d (ix1 k) := by
  rw [val_main_v5_apply, val_main_v3_apply, val_main_v1_apply, val_main_v0_apply, val_main_v4_apply, val_main_v2_apply]
  have e0 : idx_main_v0 (idx_main_v1 (idx_main_v3 (ix4 n l c k))) = ix3 n l ⟨1 + c.val, by have := c.isLt; omega⟩ :=
    funext fun a => Fin.ext (by match a with | ⟨0, _⟩ => rfl | ⟨1, _⟩ => rfl | ⟨2, _⟩ => rfl)
  have e1 : idx_main_v2 (idx_main_v4 (ix4 n l c k)) = ix1 k :=
    funext fun a => Fin.ext (by match a with | ⟨0, _⟩ => rfl)
  rw [e0, e1]
  rfl

/-- Appending the unit phase axis does not move an entry. -/
theorem unphase (n : Fin 64) (l : Fin 8192) (c : Fin 3) (k : Fin 20) :
    idx_main_v8 (ix5 n l c k ⟨0, Nat.one_pos⟩) = ix4 n l c k :=
  funext fun a => Fin.ext (by match a with | ⟨0, _⟩ => rfl | ⟨1, _⟩ => rfl | ⟨2, _⟩ => rfl | ⟨3, _⟩ => rfl)

/-- The same for the cosine array's copy of that stage. -/
theorem unphase' (n : Fin 64) (l : Fin 8192) (c : Fin 3) (k : Fin 20) :
    idx_main_v9 (ix5 n l c k ⟨0, Nat.one_pos⟩) = ix4 n l c k :=
  funext fun a => Fin.ext (by match a with | ⟨0, _⟩ => rfl | ⟨1, _⟩ => rfl | ⟨2, _⟩ => rfl | ⟨3, _⟩ => rfl)

/-- Where entry (n, l, r) of the flattened array sits in the joined one. -/
theorem unflatten (n : Fin 64) (l : Fin 8192) (r : Fin 120) :
    idx_main_v11 (ix3 n l r)
      = ix5 n l ⟨r.val / 40, by have := r.isLt; omega⟩ ⟨r.val / 2 % 20, by omega⟩ ⟨r.val % 2, by omega⟩ := by
  have hn := n.isLt
  have hl := l.isLt
  have hr := r.isLt
  refine funext fun a => Fin.ext ?_
  match a with
  | ⟨0, _⟩ => show ((n.val * 8192 + l.val) * 120 + r.val) / 983040 = n.val; omega
  | ⟨1, _⟩ => show ((n.val * 8192 + l.val) * 120 + r.val) / 120 % 8192 = l.val; omega
  | ⟨2, _⟩ => show ((n.val * 8192 + l.val) * 120 + r.val) / 40 % 3 = r.val / 40; omega
  | ⟨3, _⟩ => show ((n.val * 8192 + l.val) * 120 + r.val) / 2 % 20 = r.val / 2 % 20; omega
  | ⟨4, _⟩ => show ((n.val * 8192 + l.val) * 120 + r.val) % 2 = r.val % 2; omega

/-- THE REFERENCE'S RESULT, as a function of the two argument arrays, is the encoding. -/
theorem result_eq (x : Vec Ideal S64x8192x4 .f32) (d : Vec Ideal S20 .f32) :
    val_main_v11 (F := Ideal) x d = encoding x d := by
  funext j
  obtain ⟨n, l, r, rfl⟩ : ∃ (n : Fin 64) (l : Fin 8192) (r : Fin 120), j = ix3 n l r := ⟨j 0, j 1, j 2, eq_ix3 j⟩
  rw [val_main_v11_apply, unflatten, encoding_apply]
  unfold val_main_v10
  refine (joined_apply _ _ concatenates_S64x8192x3x20x1_S64x8192x3x20x1_S64x8192x3x20x2_d4 n l _ _ _).trans ?_
  refine if_congr Iff.rfl ?_ ?_
  · rw [val_main_v8_apply, val_main_v6_apply, unphase, angle_apply]
    rfl
  · rw [val_main_v9_apply, val_main_v7_apply, unphase', angle_apply]
    rfl

end Cert.ReferenceIdeal.RefValue

end
-- ==== Proof.lean ====
/-
  A three-axis sine / cosine positional encoding: the kernel against its reference, over the extended reals.

  Both programs map a position array x : [64, 8192, 4] and twenty divisors d : [20] to a feature array [64, 8192, 120]: entry
  (n, l, r) is the sine (r even) or the cosine (r odd) of x[n, l, 1 + r / 40] · d[(r / 2) % 20] (Proof/Encoding.lean's
  `encoding`; column 0 of x is never read). The kernel computes it on an 8 × 8 grid of [8, 1024] row blocks, the reference on
  the whole arrays, each by the same chain — slice, repeat, multiply, sine and cosine, join on a new last axis, flatten —, and
  at the ideal instance the kernel's sine and cosine and the host's are the same functions. No algebraic law is used: the
  two sides are the same expression entry by entry, so the precondition (finite inputs) is never opened.

  * Proof/BlockValue.lean: one block of the kernel's stored value, entry by entry.
  * Proof/ArrayValue.lean: the 64 blocks are the blocks of `encoding` and cover the result array, over the generated
    blockwise value leg (Proof/Gen/KernelIdeal/Value.lean).
  * Proof/RefValue.lean: the reference's result is `encoding`, over its generated run and stage lemmas
    (Proof/Gen/ReferenceIdeal/Run.lean, Read.lean).
  The three frames are the generated ones (the reference's is its run with the result dropped); the ideal pass rewrote
  nothing, so the kernel's idealization is its own text and `preserves` asks nothing.
-/
import proofs.«112678_j20280835572091_1_alg».proof.Defs
import proofs.«112678_j20280835572091_1_alg».proof.Proof.Gen.Kernel
import proofs.«112678_j20280835572091_1_alg».proof.Proof.Gen.Kernel.Skeleton
import proofs.«112678_j20280835572091_1_alg».proof.Proof.Gen.Kernel.Launch
import proofs.«112678_j20280835572091_1_alg».proof.Proof.Gen.Kernel.Points
import proofs.«112678_j20280835572091_1_alg».proof.Proof.Gen.Kernel.Frame
import proofs.«112678_j20280835572091_1_alg».proof.Proof.Gen.KernelIdeal
import proofs.«112678_j20280835572091_1_alg».proof.Proof.Gen.KernelIdeal.Skeleton
import proofs.«112678_j20280835572091_1_alg».proof.Proof.Gen.KernelIdeal.Launch
import proofs.«112678_j20280835572091_1_alg».proof.Proof.Gen.KernelIdeal.Points
import proofs.«112678_j20280835572091_1_alg».proof.Proof.Gen.KernelIdeal.Frame
import proofs.«112678_j20280835572091_1_alg».proof.Proof.Gen.ReferenceIdeal
import proofs.«112678_j20280835572091_1_alg».proof.Proof.Gen.Pre_finite_inputs
import proofs.«112678_j20280835572091_1_alg».proof.Proof.Gen.KernelIdeal.Value
import proofs.«112678_j20280835572091_1_alg».proof.Proof.Gen.ReferenceIdeal.Run
import proofs.«112678_j20280835572091_1_alg».proof.Proof.Gen.ReferenceIdeal.Read
import proofs.«112678_j20280835572091_1_alg».proof.Proof.ArrayValue
import proofs.«112678_j20280835572091_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the
    encoding of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
